-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x700 : Shape := ⟨2, ![256, 700]⟩
abbrev S512x1 : Shape := ⟨2, ![512, 1]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S256x700 : S_.BroadcastsInDim S256x700 (![] : Fin 0 → Fin S256x700.rank)
  reducesTo_S256x700_S_d0_1 : S256x700.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S256x700 .f32) (main_arg1 : FVec F S512x1 .f32) (main_arg2 : FVec F S512 .f32) (main_arg3 : FVec F S256x512 .f32) (main_arg4 : FVec F S256 .f32) : IVec S_ 1 :=
  let main_v0 : FVec F S256x700 .f32 := Host.absf main_arg0
  let main_cst : FVec F S_ .f32 := constant S_ .f32 0x7F800000#32
  let main_v1 : FVec F S256x700 .f32 := broadcastInDim S256x700 ![] bcast_S_S256x700 main_cst
  let main_v2 : IVec S256x700 1 := cmpf .olt main_v0 main_v1
  let main_c : IVec S_ 1 := constantI S_ 1 1#1
  let main_v3 : IVec S_ 1 := (fun x v => Host.reduce IntOp.andi x v reducesTo_S256x700_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S256x700 : Shape := ⟨2, ![256, 700]⟩
abbrev S512x1 : Shape := ⟨2, ![512, 1]⟩
abbrev S512 : Shape := ⟨1, ![512]⟩
abbrev S256x512 : Shape := ⟨2, ![256, 512]⟩
abbrev S256 : Shape := ⟨1, ![256]⟩
abbrev S179200x1 : Shape := ⟨2, ![179200, 1]⟩
abbrev S1x512 : Shape := ⟨2, ![1, 512]⟩
abbrev S512x256 : Shape := ⟨2, ![512, 256]⟩
abbrev S1x256 : Shape := ⟨2, ![1, 256]⟩
abbrev S179200x256 : Shape := ⟨2, ![179200, 256]⟩
abbrev S3584x1 : Shape := ⟨2, ![3584, 1]⟩
abbrev S3584x256 : Shape := ⟨2, ![3584, 256]⟩
abbrev S3584x512 : Shape := ⟨2, ![3584, 512]⟩
abbrev S256x700x256 : Shape := ⟨3, ![256, 700, 256]⟩

abbrev nBuf : Space → Nat
  | .hbm => 13
  | .vmem => 8
  | .smem => 0
  | _ => 0

abbrev bufTy : (tb : Table) → Fin (tcTables nBuf tb) → BufTy
  | .hbm, ⟨0, _⟩ => ⟨S256x700, .f32⟩
  | .hbm, ⟨1, _⟩ => ⟨S512x1, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S179200x1, .f32⟩
  | .hbm, ⟨6, _⟩ => ⟨S1x512, .f32⟩
  | .hbm, ⟨7, _⟩ => ⟨S1x512, .f32⟩
  | .hbm, ⟨8, _⟩ => ⟨S512x256, .f32⟩
  | .hbm, ⟨9, _⟩ => ⟨S512x256, .bf16⟩
  | .hbm, ⟨10, _⟩ => ⟨S1x256, .f32⟩
  | .hbm, ⟨11, _⟩ => ⟨S179200x256, .f32⟩
  | .hbm, ⟨12, _⟩ => ⟨S256x700x256, .f32⟩
  | .local _ .vmem, ⟨0, _⟩ => ⟨S3584x1, .f32⟩
  | .local _ .vmem, ⟨1, _⟩ => ⟨S3584x1, .f32⟩
  | .local _ .vmem, ⟨2, _⟩ => ⟨S1x512, .f32⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S3584x256, .f32⟩
  | .local _ .vmem, ⟨7, _⟩ => ⟨S3584x256, .f32⟩
  | _, _ => ⟨S256x700, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3584x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3584x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x700_S179200x1 : S256x700.ShapeCasts S179200x1
  shapeCasts_S512x1_S1x512 : S512x1.ShapeCasts S1x512
  shapeCasts_S512_S1x512 : S512.ShapeCasts S1x512
  transposes_S256x512_S512x256_1_0 : S256x512.Transposes [1, 0] S512x256
  bitsLt_bf16_f32 : FTy.bits .bf16 < FTy.bits .f32
  shapeCasts_S256_S1x256 : S256.ShapeCasts S1x256
  inb_S3584x1_S3584x1_0_0 : ∀ a, (![0, 0] : Fin 2 → Nat) a + S3584x1.size a ≤ S3584x1.size a
  h_S3584x1 : 0 < S3584x1.numel
  shapeCasts_S3584x1_S3584x1 : S3584x1.ShapeCasts S3584x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S3584x1_S3584x512 : S3584x1.Broadcasts S3584x512
  broadcasts_S1x512_S3584x512 : S1x512.Broadcasts S3584x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3584x256 : S1x256.Broadcasts S3584x256
  inb_S3584x256_S3584x256_0_0 : ∀ a, (![0, 0] : Fin 2 → Nat) a + S3584x256.size a ≤ S3584x256.size a
  h_S3584x256 : 0 < S3584x256.numel
  shapeCasts_S179200x256_S256x700x256 : S179200x256.ShapeCasts S256x700x256
  dot_S3584x512_S512x256_S3584x256_1_0_0_1_n_n_wf : DotDims.WF S3584x512 S512x256 S3584x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3584x1.size a ≤ S179200x1.size a
  hwx0_0 : ∀ i : grid0.Coords, EltTy.bits .f32 = 32 ∨ (Rect.block (s := S179200x1) S3584x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3584x256.size a ≤ S179200x256.size a
  hwx0_5 : ∀ i : grid0.Coords, EltTy.bits .f32 = 32 ∨ (Rect.block (s := S179200x256) S3584x256.size (cc0_transform_5 i) (hinb0_5 i)).WholeWords (EltTy.packing .f32)

variable [Facts₀]

def dot_S3584x512_S512x256_S3584x256_1_0_0_1_n_n : DotDims S3584x512 S512x256 S3584x256 where
  lhsContracting := [1]
  rhsContracting := [0]
  lhsNonContracting := [0]
  rhsNonContracting := [1]
  lhsBatch := []
  rhsBatch := []
  wf := dot_S3584x512_S512x256_S3584x256_1_0_0_1_n_n_wf

abbrev win0_0 : Pipeline.Window sig grid0 :=
  Pipeline.Window.ofSpec (Memref.whole main_v0) S3584x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S3584x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x700 : Shape := ⟨2, ![256, 700]⟩
abbrev S512x1 : Shape := ⟨2, ![512, 1]⟩
abbrev S512 : Shape := ⟨1, ![512]⟩
abbrev S256x512 : Shape := ⟨2, ![256, 512]⟩
abbrev S256 : Shape := ⟨1, ![256]⟩
abbrev S256x700x1 : Shape := ⟨3, ![256, 700, 1]⟩
abbrev S1x1x512 : Shape := ⟨3, ![1, 1, 512]⟩
abbrev S256x700x512 : Shape := ⟨3, ![256, 700, 512]⟩
abbrev S_ : Shape := ⟨0, ![]⟩
abbrev S256x700x256 : Shape := ⟨3, ![256, 700, 256]⟩
abbrev S1x1x256 : Shape := ⟨3, ![1, 1, 256]⟩

abbrev nBuf : Space → Nat
  | .hbm => 24
  | .vmem => 0
  | .smem => 0
  | _ => 0

abbrev bufTy : (tb : Table) → Fin (tcTables nBuf tb) → BufTy
  | .hbm, ⟨0, _⟩ => ⟨S256x700, .f32⟩
  | .hbm, ⟨1, _⟩ => ⟨S512x1, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S256x700x1, .f32⟩
  | .hbm, ⟨6, _⟩ => ⟨S512, .f32⟩
  | .hbm, ⟨7, _⟩ => ⟨S1x1x512, .f32⟩
  | .hbm, ⟨8, _⟩ => ⟨S256x700x512, .f32⟩
  | .hbm, ⟨9, _⟩ => ⟨S256x700x512, .f32⟩
  | .hbm, ⟨10, _⟩ => ⟨S256x700x512, .f32⟩
  | .hbm, ⟨11, _⟩ => ⟨S1x1x512, .f32⟩
  | .hbm, ⟨12, _⟩ => ⟨S256x700x512, .f32⟩
  | .hbm, ⟨13, _⟩ => ⟨S256x700x512, .f32⟩
  | .hbm, ⟨14, _⟩ => ⟨S_, .f32⟩
  | .hbm, ⟨15, _⟩ => ⟨S256x700x512, .f32⟩
  | .hbm, ⟨16, _⟩ => ⟨S256x700x512, .f32⟩
  | .hbm, ⟨17, _⟩ => ⟨S256x700x256, .f32⟩
  | .hbm, ⟨18, _⟩ => ⟨S1x1x256, .f32⟩
  | .hbm, ⟨19, _⟩ => ⟨S256x700x256, .f32⟩
  | .hbm, ⟨20, _⟩ => ⟨S256x700x256, .f32⟩
  | .hbm, ⟨21, _⟩ => ⟨S_, .f32⟩
  | .hbm, ⟨22, _⟩ => ⟨S256x700x256, .f32⟩
  | .hbm, ⟨23, _⟩ => ⟨S256x700x256, .f32⟩
  | _, _ => ⟨S256x700, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_cst : Ref sig .tc := ⟨.hbm, 21, rfl⟩
abbrev main_call1_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S256x700_S256x700x1_0_1 : S256x700.BroadcastsInDim S256x700x1 (![0, 1] : Fin 2 → Fin S256x700x1.rank)
  shapeCasts_S512x1_S512 : S512x1.ShapeCasts S512
  bcast_S512_S1x1x512_2 : S512.BroadcastsInDim S1x1x512 (![2] : Fin 1 → Fin S1x1x512.rank)
  bcast_S256x700x1_S256x700x512_0_1_2 : S256x700x1.BroadcastsInDim S256x700x512 (![0, 1, 2] : Fin 3 → Fin S256x700x512.rank)
  bcast_S1x1x512_S256x700x512_0_1_2 : S1x1x512.BroadcastsInDim S256x700x512 (![0, 1, 2] : Fin 3 → Fin S256x700x512.rank)
  bcast_S_S256x700x512 : S_.BroadcastsInDim S256x700x512 (![] : Fin 0 → Fin S256x700x512.rank)
  bcast_S256_S1x1x256_2 : S256.BroadcastsInDim S1x1x256 (![2] : Fin 1 → Fin S1x1x256.rank)
  bcast_S1x1x256_S256x700x256_0_1_2 : S1x1x256.BroadcastsInDim S256x700x256 (![0, 1, 2] : Fin 3 → Fin S256x700x256.rank)
  bcast_S_S256x700x256 : S_.BroadcastsInDim S256x700x256 (![] : Fin 0 → Fin S256x700x256.rank)
  dot_S256x700x512_S256x512_S256x700x256_2_1_01_0_n_n_wf : DotDims.WF S256x700x512 S256x512 S256x700x256 [2] [1] [0, 1] [0] [] []

variable [Facts₀]

def dot_S256x700x512_S256x512_S256x700x256_2_1_01_0_n_n : DotDims S256x700x512 S256x512 S256x700x256 where
  lhsContracting := [2]
  rhsContracting := [1]
  lhsNonContracting := [0, 1]
  rhsNonContracting := [0]
  lhsBatch := []
  rhsBatch := []
  wf := dot_S256x700x512_S256x512_S256x700x256_2_1_01_0_n_n_wf

class Facts : Prop extends Facts₀ where

variable [Facts]
-- ==== Proof.MlpSpec.lean ====
/-
  The function both programs compute, stated once over the argument arrays.

  A batch of 256 rows carries 700 scalar features. Every scalar x[b,f] goes through the same two-layer
  perceptron: 512 hidden units h_k = max (x[b,f] * W1[k,0] + b1[k]) 0, then 256 outputs
  out[b,f,d] = max ((sum over k of h_k * W2[d,k]) + b2[d]) 0.  All arithmetic is that of the extended reals.

  Three spellings of that one function are given, because the region works on a flattened layout: the
  result array [256,700,256] itself; the same over the 179200 = 256 * 700 flattened rows r = b * 700 + f, with
  the weights laid out as a row [1,512], the second weight matrix transposed to [512,256] and the second bias
  a row [1,256]; and one block of 3584 consecutive flattened rows.  The zero both rectifiers compare against
  is kept as the f32 word 0 read at the exact instance, never evaluated: it is the same word on both sides.
-/
import Idealize.ShloMosaic.PureOps.Ideal
import Idealize.ShloMosaic.Lib.ValueIdx

noncomputable section

open scoped BigOperators
open Idealize.ShloMosaic Idealize.ShloMosaic.ValueIdx

namespace Cert.FeatureMlp

/-- The zero the rectifiers compare against. -/
abbrev zeroWord : EReal := Ideal.ofBits .f32 0x00000000#32

/-- One hidden unit of the first layer: the rectified affine image of a scalar feature. -/
def hidden (x w b : EReal) : EReal := max (x * w + b) zeroWord

/-- One output of the second layer from the 512 hidden units of a feature `x`, given as functions of the
    hidden index: first-layer weight and bias, second-layer weight; and the output's bias. -/
def output (x : EReal) (w1 b1 w2 : Fin 512 → EReal) (b2 : EReal) : EReal :=
  max ((∑ k : Fin 512, hidden x (w1 k) (b1 k) * w2 k) + b2) zeroWord

/-- The result array: entry (b, f, d) is output d of feature x[b,f]. -/
def perceptron (x : (⟨2, ![256, 700]⟩ : Shape).Idx → EReal) (W1 : (⟨2, ![512, 1]⟩ : Shape).Idx → EReal)
    (b1 : (⟨1, ![512]⟩ : Shape).Idx → EReal) (W2 : (⟨2, ![256, 512]⟩ : Shape).Idx → EReal)
    (b2 : (⟨1, ![256]⟩ : Shape).Idx → EReal) : (⟨3, ![256, 700, 256]⟩ : Shape).Idx → EReal :=
  fun i => output (x (ix2 (i 0) (i 1))) (fun k => W1 (ix2 k (0 : Fin 1))) (fun k => b1 (ix1 k))
    (fun k => W2 (ix2 (i 2) k)) (b2 (ix1 (i 2)))

/-- The same over flattened rows: entry (r, d) from the column of features, the weight row, the bias row, the
    transposed second weight matrix and the second bias row. -/
def flatPerceptron (xf : (⟨2, ![179200, 1]⟩ : Shape).Idx → EReal) (w1 : (⟨2, ![1, 512]⟩ : Shape).Idx → EReal)
    (b1 : (⟨2, ![1, 512]⟩ : Shape).Idx → EReal) (w2t : (⟨2, ![512, 256]⟩ : Shape).Idx → EReal)
    (b2 : (⟨2, ![1, 256]⟩ : Shape).Idx → EReal) : (⟨2, ![179200, 256]⟩ : Shape).Idx → EReal :=
  fun i => output (xf (ix2 (i 0) (0 : Fin 1))) (fun k => w1 (ix2 (0 : Fin 1) k)) (fun k => b1 (ix2 (0 : Fin 1) k))
    (fun k => w2t (ix2 k (i 1))) (b2 (ix2 (0 : Fin 1) (i 1)))

/-- The same on one block of 3584 flattened rows. -/
def blockPerceptron (xf : (⟨2, ![3584, 1]⟩ : Shape).Idx → EReal) (w1 : (⟨2, ![1, 512]⟩ : Shape).Idx → EReal)
    (b1 : (⟨2, ![1, 512]⟩ : Shape).Idx → EReal) (w2t : (⟨2, ![512, 256]⟩ : Shape).Idx → EReal)
    (b2 : (⟨2, ![1, 256]⟩ : Shape).Idx → EReal) : (⟨2, ![3584, 256]⟩ : Shape).Idx → EReal :=
  fun i => output (xf (ix2 (i 0) (0 : Fin 1))) (fun k => w1 (ix2 (0 : Fin 1) k)) (fun k => b1 (ix2 (0 : Fin 1) k))
    (fun k => w2t (ix2 k (i 1))) (b2 (ix2 (0 : Fin 1) (i 1)))

end Cert.FeatureMlp

end
-- ==== Proof.BlockValue.lean ====
/-
  What the kernel's body stores at one grid point, read entry by entry.

  The body works on a block of 3584 flattened rows. It forms the [3584,512] matrix of hidden units
  h[p,k] = max (x[p,0] * w1[0,k] + b1[0,k]) 0 by broadcasting the column of features along the lanes and the weight
  and bias rows down the rows, multiplies it into the [512,256] second weight matrix from a zero accumulator, adds
  the second bias row broadcast down the rows and rectifies again. Read at entry (p, q) over the extended reals
  the matrix product from zero is the plain sum over the 512 hidden units of h[p,k] * w2t[k,q] (a change of float
  format is the identity there), so the stored block is the block form of the perceptron.
-/
import proofs.«147390_j62912680952641_1_alg».proof.Proof.Gen.KernelIdeal.Skeleton
import proofs.«147390_j62912680952641_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.FeatureMlp

/-! ## The matrix product's operand indices, axis by axis

The product contracts axis 1 of the left operand with axis 0 of the right one; the output's row is the left
operand's row and the output's column the right operand's column. -/

theorem lhs_row (i : S3584x256.Idx) (q : dot_S3584x512_S512x256_S3584x256_1_0_0_1_n_n.contr.Idx) :
    (dot_S3584x512_S512x256_S3584x256_1_0_0_1_n_n.lhsIdx i q 0).val = (i 0).val := by
  unfold DotDims.lhsIdx
  rw [dif_neg (show ¬(0 : Fin S3584x512.rank) ∈ dot_S3584x512_S512x256_S3584x256_1_0_0_1_n_n.lhsBatch by decide), dif_pos (show (0 : Fin S3584x512.rank) ∈ dot_S3584x512_S512x256_S3584x256_1_0_0_1_n_n.lhsNonContracting by decide)]
  rfl
theorem lhs_hidden (i : S3584x256.Idx) (q : dot_S3584x512_S512x256_S3584x256_1_0_0_1_n_n.contr.Idx) :
    (dot_S3584x512_S512x256_S3584x256_1_0_0_1_n_n.lhsIdx i q 1).val = (q ⟨0, by decide⟩).val :=
  dot_S3584x512_S512x256_S3584x256_1_0_0_1_n_n.lhsIdx_val_of_single rfl i q
theorem rhs_hidden (i : S3584x256.Idx) (q : dot_S3584x512_S512x256_S3584x256_1_0_0_1_n_n.contr.Idx) :
    (dot_S3584x512_S512x256_S3584x256_1_0_0_1_n_n.rhsIdx i q 0).val = (q ⟨0, by decide⟩).val :=
  dot_S3584x512_S512x256_S3584x256_1_0_0_1_n_n.rhsIdx_val_of_single rfl i q
theorem rhs_col (i : S3584x256.Idx) (q : dot_S3584x512_S512x256_S3584x256_1_0_0_1_n_n.contr.Idx) :
    (dot_S3584x512_S512x256_S3584x256_1_0_0_1_n_n.rhsIdx i q 1).val = (i 1).val := by
  unfold DotDims.rhsIdx
  rw [dif_neg (show ¬(1 : Fin S512x256.rank) ∈ dot_S3584x512_S512x256_S3584x256_1_0_0_1_n_n.rhsBatch by decide), dif_pos (show (1 : Fin S512x256.rank) ∈ dot_S3584x512_S512x256_S3584x256_1_0_0_1_n_n.rhsNonContracting by decide)]
  rfl

/-- The product into the zero accumulator, at entry (p, q): the sum over the hidden index k of l[p,k] * r[k,q]. -/
theorem matmul_entry (l : FVec Ideal S3584x512 .bf16) (r : FVec Ideal S512x256 .bf16) (p : Fin 3584) (q : Fin 256) :
    matmul dot_S3584x512_S512x256_S3584x256_1_0_0_1_n_n none l r (constant S3584x256 .f32 0x00000000#32) (ix2 p q)
      = ∑ k : Fin 512, l (ix2 p k) * r (ix2 k q) := by
  simp only [matmul]
  rw [Ideal.matmul_constant_zero_apply, ← Equiv.sum_comp (contrEquiv1 dot_S3584x512_S512x256_S3584x256_1_0_0_1_n_n 512 rfl rfl).symm]
  refine Finset.sum_congr rfl fun k _ => ?_
  have hk := contrEquiv1_symm_val dot_S3584x512_S512x256_S3584x256_1_0_0_1_n_n 512 rfl rfl k
  have el : dot_S3584x512_S512x256_S3584x256_1_0_0_1_n_n.lhsIdx (ix2 p q) ((contrEquiv1 dot_S3584x512_S512x256_S3584x256_1_0_0_1_n_n 512 rfl rfl).symm k) = ix2 p k := funext fun a => Fin.ext (by
    match a with
    | ⟨0, _⟩ => exact lhs_row _ _
    | ⟨1, _⟩ => exact (lhs_hidden _ _).trans hk)
  have er : dot_S3584x512_S512x256_S3584x256_1_0_0_1_n_n.rhsIdx (ix2 p q) ((contrEquiv1 dot_S3584x512_S512x256_S3584x256_1_0_0_1_n_n 512 rfl rfl).symm k) = ix2 k q := funext fun a => Fin.ext (by
    match a with
    | ⟨0, _⟩ => exact (rhs_hidden _ _).trans hk
    | ⟨1, _⟩ => exact rhs_col _ _)
  rw [el, er]

/-! ## The broadcasts, at an entry -/

/-- The column of features broadcast along the 512 lanes reads, at (p, k), the column's row p. -/
theorem column_along_lanes (v : FVec Ideal S3584x1 .f32) (p : Fin 3584) (k : Fin 512) :
    broadcastTo S3584x512 v broadcasts_S3584x1_S3584x512 (ix2 p k) = v (ix2 p (0 : Fin 1)) := by
  refine broadcastTo_apply v broadcasts_S3584x1_S3584x512 (ix2 p k) (ix2 p (0 : Fin 1)) fun a => ?_
  match a with
  | ⟨0, _⟩ => show p.val = if (3584 : Nat) = 1 then 0 else p.val; rw [if_neg (by decide)]
  | ⟨1, _⟩ => show (0 : Nat) = if (1 : Nat) = 1 then 0 else k.val; rw [if_pos rfl]

/-- A [1,512] row broadcast down the 3584 rows reads, at (p, k), the row at k. -/
theorem row_down_rows (v : FVec Ideal S1x512 .f32) (p : Fin 3584) (k : Fin 512) :
    broadcastTo S3584x512 v broadcasts_S1x512_S3584x512 (ix2 p k) = v (ix2 (0 : Fin 1) k) :=
  broadcastTo_1b_ab_apply v broadcasts_S1x512_S3584x512 p k

/-- The [1,256] bias row broadcast down the 3584 rows reads, at (p, q), the row at q. -/
theorem bias_down_rows (v : FVec Ideal S1x256 .f32) (p : Fin 3584) (q : Fin 256) :
    broadcastTo S3584x256 v broadcasts_S1x256_S3584x256 (ix2 p q) = v (ix2 (0 : Fin 1) q) :=
  broadcastTo_1b_ab_apply v broadcasts_S1x256_S3584x256 p q

/-! ## The stored block -/

/-- The value the body stores is the perceptron on the block's rows. -/
theorem payload_eq (x0 : Vec Ideal S3584x1 .f32) (x1 : Vec Ideal S1x512 .f32) (x2 : Vec Ideal S1x512 .f32)
    (x3 : Vec Ideal S512x256 .bf16) (x4 : Vec Ideal S1x256 .f32) :
    k0_pay1 (F := Ideal) x0 x1 x2 x3 x4 = blockPerceptron x0 x1 x2 x3 x4 := by
  funext j
  obtain ⟨p, q, rfl⟩ : ∃ (p : Fin 3584) (q : Fin 256), j = ix2 p q := ⟨j 0, j 1, eq_ix2 j⟩
  unfold k0_pay1
  rw [maximumf_apply, addf_apply, matmul_entry, bias_down_rows, broadcast_apply]
  simp only [Idealize.ShloMosaic.shapeCast_self, truncf_apply, maximumf_apply, addf_apply, mulf_apply, broadcast_apply,
    column_along_lanes, row_down_rows]
  rfl

end Cert.KernelIdeal.BlockValue

end
-- ==== Proof.FlatRows.lean ====
/-
  The three spellings of the perceptron agree where their operands agree.

  A block of 3584 flattened rows is a window of the flattened array: if the block's feature at row p is the
  array's feature at row r, its weight rows are the array's, and its second-layer weights and bias agree in column q
  of the block and column d of the array, then the block form at (p, q) is the flat form at (r, d). And the flat
  form over the re-laid arrays at row r = b * 700 + f is the perceptron at (b, f, d), as soon as the column of
  features at row r is x[b,f], the weight row at k is W1[k,0], the bias row at k is b1[k], the transposed weights at
  (k, d) are W2[d,k] and the bias row at d is b2[d]. Nothing is computed here: every operand is matched by name.
-/
import proofs.«147390_j62912680952641_1_alg».proof.Proof.MlpSpec

noncomputable section

open scoped BigOperators

namespace Cert.FeatureMlp

open Idealize.ShloMosaic Idealize.ShloMosaic.ValueIdx

/-- A block's entry is the flattened array's entry under it. -/
theorem block_is_flat
    (xf : (⟨2, ![179200, 1]⟩ : Shape).Idx → EReal) (w1 b1 : (⟨2, ![1, 512]⟩ : Shape).Idx → EReal)
    (w2t : (⟨2, ![512, 256]⟩ : Shape).Idx → EReal) (b2 : (⟨2, ![1, 256]⟩ : Shape).Idx → EReal)
    (x0 : (⟨2, ![3584, 1]⟩ : Shape).Idx → EReal) (x1 x2 : (⟨2, ![1, 512]⟩ : Shape).Idx → EReal)
    (x3 : (⟨2, ![512, 256]⟩ : Shape).Idx → EReal) (x4 : (⟨2, ![1, 256]⟩ : Shape).Idx → EReal)
    (j : (⟨2, ![3584, 256]⟩ : Shape).Idx) (i : (⟨2, ![179200, 256]⟩ : Shape).Idx)
    (h0 : x0 (ix2 (j 0) (0 : Fin 1)) = xf (ix2 (i 0) (0 : Fin 1))) (h1 : x1 = w1) (h2 : x2 = b1)
    (h3 : ∀ k : Fin 512, x3 (ix2 k (j 1)) = w2t (ix2 k (i 1)))
    (h4 : x4 (ix2 (0 : Fin 1) (j 1)) = b2 (ix2 (0 : Fin 1) (i 1))) :
    blockPerceptron x0 x1 x2 x3 x4 j = flatPerceptron xf w1 b1 w2t b2 i := by
  subst h1 h2
  unfold blockPerceptron flatPerceptron
  rw [h0, h4, funext h3]

/-- The flat form at row b * 700 + f and column d is the perceptron at (b, f, d). -/
theorem flat_is_perceptron
    (x : (⟨2, ![256, 700]⟩ : Shape).Idx → EReal) (W1 : (⟨2, ![512, 1]⟩ : Shape).Idx → EReal)
    (b1 : (⟨1, ![512]⟩ : Shape).Idx → EReal) (W2 : (⟨2, ![256, 512]⟩ : Shape).Idx → EReal)
    (b2 : (⟨1, ![256]⟩ : Shape).Idx → EReal)
    (xf : (⟨2, ![179200, 1]⟩ : Shape).Idx → EReal) (w1 b1r : (⟨2, ![1, 512]⟩ : Shape).Idx → EReal)
    (w2t : (⟨2, ![512, 256]⟩ : Shape).Idx → EReal) (b2r : (⟨2, ![1, 256]⟩ : Shape).Idx → EReal)
    (hx : ∀ (b : Fin 256) (f : Fin 700) (h : b.val * 700 + f.val < 179200), xf (ix2 ⟨b.val * 700 + f.val, h⟩ (0 : Fin 1)) = x (ix2 b f))
    (hw1 : ∀ k : Fin 512, w1 (ix2 (0 : Fin 1) k) = W1 (ix2 k (0 : Fin 1)))
    (hb1 : ∀ k : Fin 512, b1r (ix2 (0 : Fin 1) k) = b1 (ix1 k))
    (hw2 : ∀ (k : Fin 512) (d : Fin 256), w2t (ix2 k d) = W2 (ix2 d k))
    (hb2 : ∀ d : Fin 256, b2r (ix2 (0 : Fin 1) d) = b2 (ix1 d))
    (b : Fin 256) (f : Fin 700) (d : Fin 256) (h : b.val * 700 + f.val < 179200) :
    flatPerceptron xf w1 b1r w2t b2r (ix2 ⟨b.val * 700 + f.val, h⟩ d) = perceptron x W1 b1 W2 b2 (ix3 b f d) := by
  unfold flatPerceptron perceptron
  show output (xf (ix2 ⟨b.val * 700 + f.val, h⟩ (0 : Fin 1))) (fun k => w1 (ix2 (0 : Fin 1) k)) (fun k => b1r (ix2 (0 : Fin 1) k))
      (fun k => w2t (ix2 k d)) (b2r (ix2 (0 : Fin 1) d))
    = output (x (ix2 b f)) (fun k => W1 (ix2 k (0 : Fin 1))) (fun k => b1 (ix1 k)) (fun k => W2 (ix2 d k)) (b2 (ix1 d))
  rw [hx, hb2, funext hw1, funext hb1, funext fun k => hw2 k d]

end Cert.FeatureMlp

end
-- ==== Proof.ArrayValue.lean ====
/-
  The region's output array after the run.

  The grid has 50 points; point t works on flattened rows 3584 * t .. 3584 * t + 3583. The column of features
  and the output move with t (block index t on the row axis), the four parameter arrays are fetched whole (block
  index 0). So what point t writes back is block t of the flat form of the perceptron over the arrays as the
  region finds them, the 50 blocks tile the [179200,256] array, and the array ends holding that flat form.
-/
import proofs.«147390_j62912680952641_1_alg».proof.Proof.Gen.KernelIdeal.Frame
import proofs.«147390_j62912680952641_1_alg».proof.Proof.BlockValue
import proofs.«147390_j62912680952641_1_alg».proof.Proof.FlatRows
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Cert.FeatureMlp
open Idealize.ShloMosaic.Pipeline (Dat Cfg Window)

variable (m : (ℓ : Loc nD τ sig) → Buf (Elt Ideal) ℓ)

/-- Every access of the body starts at the origin of its buffer. -/
theorem origin : (![0, 0] : Fin 2 → Nat) = fun _ => 0 := funext fun a => by fin_cases a <;> rfl

/-- The block index of each window at each point: the features' and the output's row block is the point's
    number, every other block index is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The flat form of the perceptron over the five arrays the region is launched on. -/
abbrev regionResult (c : Dev nD) : S179200x256.Idx → EReal :=
  flatPerceptron (V m c main_v0) (V m c main_v1) (V m c main_v2) (V m c main_v4) (V m c main_v5)

/-- What point t writes back is block t of the flat form. -/
theorem flushed_eq (c : Dev nD) (t : Fin cfg0.N) :
    (dats m 0 c).flushed 5 t = ((cfg0.win 5).blk t).view.read (Elt Ideal) (regionResult m c) := by
  show (cfg0.win 5).cut (grid0.coords t) ((dats m 0 c).after 5 t) = _
  rw [after0_5]
  unfold out0_5
  rw [View.canon_unit_zero origin]
  simp only [View.ld_unit_zero (S := S3584x1) origin, View.ld_unit_zero (S := S1x512) origin,
    View.ld_unit_zero (S := S512x256) origin, View.ld_unit_zero (S := S1x256) origin]
  rw [BlockValue.payload_eq]
  obtain ⟨e00, e01, e10, e11, e20, e21, e30, e31, e40, e41, e50, e51⟩ := index_facts t
  funext j
  show blockPerceptron (iblk m c 0 t) (iblk m c 1 t) (iblk m c 2 t) (iblk m c 3 t) (iblk m c 4 t) j
    = flatPerceptron (V m c main_v0) (V m c main_v1) (V m c main_v2) (V m c main_v4) (V m c main_v5) (((cfg0.win 5).blk t).view.emb j)
  refine block_is_flat _ _ _ _ _ _ _ _ _ _ j _ ?_ ?_ ?_ ?_ ?_
  · -- the feature of the block's row is the array's feature under it
    show V m c main_v0 (((cfg0.win 0).blk t).view.emb (ix2 (j 0) (0 : Fin 1))) = V m c main_v0 (ix2 ((((cfg0.win 5).blk t).view.emb j) 0) (0 : Fin 1))
    refine congrArg _ (funext fun a => Fin.ext ?_)
    match a with
    | ⟨0, _⟩ => show win0_0.index t (0 : Fin 2) * 3584 + 1 * (j 0).val = win0_5.index t (0 : Fin 2) * 3584 + 1 * (j 0).val; omega
    | ⟨1, _⟩ => show win0_0.index t (1 : Fin 2) * 1 + 1 * 0 = 0; omega
  · -- the weight row is fetched whole
    funext y
    show V m c main_v1 (((cfg0.win 1).blk t).view.emb y) = V m c main_v1 y
    refine congrArg _ (funext fun a => Fin.ext ?_)
    match a with
    | ⟨0, _⟩ => show win0_1.index t (0 : Fin 2) * 1 + 1 * (y 0).val = (y 0).val; omega
    | ⟨1, _⟩ => show win0_1.index t (1 : Fin 2) * 512 + 1 * (y 1).val = (y 1).val; omega
  · -- so is the bias row
    funext y
    show V m c main_v2 (((cfg0.win 2).blk t).view.emb y) = V m c main_v2 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  · -- the second weight matrix is fetched whole; the output's column is the block's
    intro k
    show V m c main_v4 (((cfg0.win 3).blk t).view.emb (ix2 k (j 1))) = V m c main_v4 (ix2 k ((((cfg0.win 5).blk t).view.emb j) 1))
    refine congrArg _ (funext fun a => Fin.ext ?_)
    match a with
    | ⟨0, _⟩ => show win0_3.index t (0 : Fin 2) * 512 + 1 * k.val = k.val; omega
    | ⟨1, _⟩ => show win0_3.index t (1 : Fin 2) * 256 + 1 * (j 1).val = win0_5.index t (1 : Fin 2) * 256 + 1 * (j 1).val; omega
  · -- and so is the second bias row
    show V m c main_v5 (((cfg0.win 4).blk t).view.emb (ix2 (0 : Fin 1) (j 1))) = V m c main_v5 (ix2 (0 : Fin 1) ((((cfg0.win 5).blk t).view.emb j) 1))
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega

/-- An index of the array is in point t's block iff each coordinate is in the block's range on its axis. -/
theorem mem_block (t : Fin cfg0.N) (i : S179200x256.Idx) :
    i ∈ ((cfg0.win 5).blk t).view.set ↔ ∀ a : Fin 2, win0_5.index t a * S3584x256.size a ≤ (i a).val ∧ (i a).val < win0_5.index t a * S3584x256.size a + S3584x256.size a := by
  show i ∈ ((View.whole main_v6).slice (win0_5.rect t)).set ↔ _
  rw [View.set_slice_whole, Rect.mem_set_unit]
  exact Iff.rfl

/-- Row r of the array lies in the block of point r / 3584, which writes back. -/
theorem rows_covered (i : S179200x256.Idx) :
    ∃ t : Fin cfg0.N, (cfg0.win 5).flush t = true ∧ i ∈ ((cfg0.win 5).blk t).view.set := by
  have hi0 : (i 0).val < 179200 := (i 0).isLt
  have hi1 : (i 1).val < 256 := (i 1).isLt
  have hN : (i 0).val / 3584 < grid0.N := by rw [N_0]; omega
  obtain ⟨t, ht⟩ : ∃ t : Fin cfg0.N, t.val = (i 0).val / 3584 := ⟨⟨_, hN⟩, rfl⟩
  obtain ⟨e00, e01, e10, e11, e20, e21, e30, e31, e40, e41, e50, e51⟩ := index_facts t
  refine ⟨t, flush0_5 t, ?_⟩
  rw [mem_block]
  intro a
  match a with
  | ⟨0, _⟩ => show win0_5.index t (0 : Fin 2) * 3584 ≤ (i 0).val ∧ (i 0).val < win0_5.index t (0 : Fin 2) * 3584 + 3584; omega
  | ⟨1, _⟩ => show win0_5.index t (1 : Fin 2) * 256 ≤ (i 1).val ∧ (i 1).val < win0_5.index t (1 : Fin 2) * 256 + 256; omega

/-- The region's output array ends holding the flat form of the perceptron. -/
theorem region_array (c : Dev nD) : (dats m 0 c).arrAt 5 cfg0.N = regionResult m c :=
  (dats m 0 c).arrAt_eq_of_cover 5 (regionResult m c) (fun t _ => flushed_eq m c t) rows_covered

end Cert.KernelIdeal.ArrayValue

end
-- ==== Proof.KernelValue.lean ====
/-
  The kernel's result array is the perceptron of its arguments.

  Before the region the host lays the arguments out for it: the [256,700] features as a column of 179200 rows
  (row b * 700 + f holds x[b,f]), the first weight column and the two biases as rows, the second weight matrix
  transposed (and narrowed to a shorter float format, which changes nothing over the extended reals). After the
  region it reshapes the [179200,256] array to [256,700,256], so entry (b, f, d) of the result is row b * 700 + f,
  column d, of the region's array. With the region's array known to be the flat form of the perceptron over the
  re-laid arrays, the result is the perceptron of the arguments.
-/
import proofs.«147390_j62912680952641_1_alg».proof.Proof.Gen.KernelIdeal.Frame
import proofs.«147390_j62912680952641_1_alg».proof.Proof.ArrayValue
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.FeatureMlp Idealize.ShloMosaic.StableHlo

variable (m : (ℓ : Loc nD τ sig) → Buf (Elt Ideal) ℓ) (ρ : Dev nD → PrngReg)

/-! ## The arrays the region is launched on -/

theorem features_array (c : Dev nD) :
    (V m c main_v0 : S179200x1.Idx → EReal) = shapeCast S179200x1 (m ((c : Thread nD τ).loc main_arg0)) shapeCasts_S256x700_S179200x1 := by
  show StableHlo.after hostOps0 (fun b => m (c, b)) (Proc.devRef .tc main_v0) = _
  after_results
  rfl
theorem weight1_array (c : Dev nD) :
    (V m c main_v1 : S1x512.Idx → EReal) = shapeCast S1x512 (m ((c : Thread nD τ).loc main_arg1)) shapeCasts_S512x1_S1x512 := by
  show StableHlo.after hostOps0 (fun b => m (c, b)) (Proc.devRef .tc main_v1) = _
  after_results
  rfl
theorem bias1_array (c : Dev nD) :
    (V m c main_v2 : S1x512.Idx → EReal) = shapeCast S1x512 (m ((c : Thread nD τ).loc main_arg2)) shapeCasts_S512_S1x512 := by
  show StableHlo.after hostOps0 (fun b => m (c, b)) (Proc.devRef .tc main_v2) = _
  after_results
  rfl
theorem weight2_array (c : Dev nD) :
    (V m c main_v4 : S512x256.Idx → EReal)
      = truncf (F := Ideal) .bf16 (transpose S512x256 [1, 0] (m ((c : Thread nD τ).loc main_arg3)) transposes_S256x512_S512x256_1_0) bitsLt_bf16_f32 := by
  show StableHlo.after hostOps0 (fun b => m (c, b)) (Proc.devRef .tc main_v4) = _
  after_results
theorem bias2_array (c : Dev nD) :
    (V m c main_v5 : S1x256.Idx → EReal) = shapeCast S1x256 (m ((c : Thread nD τ).loc main_arg4)) shapeCasts_S256_S1x256 := by
  show StableHlo.after hostOps0 (fun b => m (c, b)) (Proc.devRef .tc main_v5) = _
  after_results
  rfl

/-! ## Their entries -/

/-- Row b * 700 + f of the column of features is x[b,f]. -/
theorem features_entry (c : Dev nD) (b : Fin 256) (f : Fin 700) (h : b.val * 700 + f.val < 179200) :
    V m c main_v0 (ix2 ⟨b.val * 700 + f.val, h⟩ (0 : Fin 1)) = (m ((c : Thread nD τ).loc main_arg0)) (ix2 b f) := by
  rw [features_array]
  refine shapeCast_apply _ shapeCasts_S256x700_S179200x1 _ (ix2 b f) ?_
  rw [Shape.rowMajor_val_two, Shape.rowMajor_val_two]
  show b.val * 700 + f.val = (b.val * 700 + f.val) * 1 + 0
  omega

/-- The weight row at k is W1[k,0]. -/
theorem weight1_entry (c : Dev nD) (k : Fin 512) :
    V m c main_v1 (ix2 (0 : Fin 1) k) = (m ((c : Thread nD τ).loc main_arg1)) (ix2 k (0 : Fin 1)) := by
  rw [weight1_array]
  refine shapeCast_apply _ shapeCasts_S512x1_S1x512 _ (ix2 k (0 : Fin 1)) ?_
  rw [Shape.rowMajor_val_two, Shape.rowMajor_val_two]
  show k.val * 1 + 0 = 0 * 512 + k.val
  omega

/-- The bias row at k is b1[k]. -/
theorem bias1_entry (c : Dev nD) (k : Fin 512) :
    V m c main_v2 (ix2 (0 : Fin 1) k) = (m ((c : Thread nD τ).loc main_arg2)) (ix1 k) := by
  rw [bias1_array]
  exact shapeCast_a_1a_apply _ shapeCasts_S512_S1x512 (0 : Fin 1) k

/-- The transposed second weight matrix at (k, d) is W2[d,k]. -/
theorem weight2_entry (c : Dev nD) (k : Fin 512) (d : Fin 256) :
    V m c main_v4 (ix2 k d) = (m ((c : Thread nD τ).loc main_arg3)) (ix2 d k) := by
  rw [weight2_array]
  exact transpose_ix2_apply _ transposes_S256x512_S512x256_1_0 k d

/-- The second bias row at d is b2[d]. -/
theorem bias2_entry (c : Dev nD) (d : Fin 256) :
    V m c main_v5 (ix2 (0 : Fin 1) d) = (m ((c : Thread nD τ).loc main_arg4)) (ix1 d) := by
  rw [bias2_array]
  exact shapeCast_a_1a_apply _ shapeCasts_S256_S1x256 (0 : Fin 1) d

/-! ## The result -/

/-- After the region the result buffer holds the region's array reshaped to [256,700,256]. -/
theorem tail_eq (c : Dev nD) :
    Pipeline.afterTail₀ cfgs (dats m) 0 (V0 m) [hostOps1] c main_v7
      = shapeCast S256x700x256 ((dats m 0 c).arrAt 5 cfg0.N) shapeCasts_S179200x256_S256x700x256 := by
  unfold Pipeline.afterTail₀
  show StableHlo.after hostOps1 _ (Proc.devRef .tc main_v7) = _
  after_results
  exact congrArg (fun y => shapeCast S256x700x256 y shapeCasts_S179200x256_S256x700x256)
    (Pipeline.withArrays_arr spec0 launch0.win.arr_inj c _ _ 5)

/-- The result array is the perceptron of the argument arrays. -/
theorem result_eq (c : Dev nD) :
    Pipeline.afterTail₀ cfgs (dats m) 0 (V0 m) [hostOps1] c main_v7
      = perceptron (m ((c : Thread nD τ).loc main_arg0)) (m ((c : Thread nD τ).loc main_arg1)) (m ((c : Thread nD τ).loc main_arg2)) (m ((c : Thread nD τ).loc main_arg3)) (m ((c : Thread nD τ).loc main_arg4)) := by
  rw [tail_eq, ArrayValue.region_array]
  funext i
  obtain ⟨b, f, d, rfl⟩ : ∃ (b : Fin 256) (f : Fin 700) (d : Fin 256), i = ix3 b f d := ⟨i 0, i 1, i 2, eq_ix3 i⟩
  have hr : b.val * 700 + f.val < 179200 := by have := b.isLt; have := f.isLt; omega
  refine (shapeCast_apply _ shapeCasts_S179200x256_S256x700x256 (ix3 b f d) (ix2 ⟨b.val * 700 + f.val, hr⟩ d) ?_).trans ?_
  · rw [Shape.rowMajor_val_two, Shape.rowMajor_val_three]
    rfl
  · exact flat_is_perceptron _ _ _ _ _ _ _ _ _ _ (features_entry m c) (weight1_entry m c) (bias1_entry m c)
      (weight2_entry m c) (bias2_entry m c) b f d hr

/-! ## The run, with its value -/

/-- Every weakly fair execution terminates with the result buffer at the perceptron of the arguments and the
    arguments unchanged. -/
theorem run : θ_run defs (onTc (τ := τ) (main (F := Ideal))) ⟨m, fun _ => 0, ρ⟩ fun r => ∀ c : Dev nD,
      r.2.mem ((c : Thread nD τ).loc main_v7) = perceptron (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference's result, entry by entry, is the perceptron.

  The reference broadcasts the features to [256,700,512], multiplies by the first weight column laid along the
  last axis, adds the first bias, rectifies, contracts the last axis against the second weight matrix, adds the
  second bias and rectifies. Each broadcast reads one element of its operand, so at entry (b, f, d) and hidden index
  k the operands are x[b,f], W1[k,0], b1[k], W2[d,k] and b2[d]: exactly the perceptron's.
-/
import proofs.«147390_j62912680952641_1_alg».proof.Proof.Gen.ReferenceIdeal.Read
import proofs.«147390_j62912680952641_1_alg».proof.Proof.MlpSpec

noncomputable section

open scoped BigOperators

namespace Cert.ReferenceIdeal.RefValue

open Cert.ReferenceIdeal Cert.ReferenceIdeal.Read Idealize.ShloMosaic Idealize.ShloMosaic.ValueIdx Cert.FeatureMlp

/-! ## Where each broadcast reads its operand -/

/-- The feature read at (b, f, k) of the broadcast is x[b,f]. -/
theorem feature_idx (i : S256x700x256.Idx) (k : Fin 512) :
    idx_main_v0 (idx_main_v3 (lidx_main_v10 i k)) = ix2 (i 0) (i 1) :=
  funext fun a => Fin.ext (by match a with | ⟨0, _⟩ => rfl | ⟨1, _⟩ => rfl)

/-- The first-layer weight read there is W1[k,0]. -/
theorem weight1_idx (i : S256x700x256.Idx) (k : Fin 512) :
    idx_main_v1 (idx_main_v2 (idx_main_v4 (lidx_main_v10 i k))) = ix2 k (0 : Fin 1) :=
  funext fun a => Fin.ext (by match a with | ⟨0, _⟩ => exact Nat.div_one _ | ⟨1, _⟩ => rfl)

/-- The first-layer bias read there is b1[k]. -/
theorem bias1_idx (i : S256x700x256.Idx) (k : Fin 512) :
    idx_main_v6 (idx_main_v7 (lidx_main_v10 i k)) = ix1 k :=
  funext fun a => Fin.ext (by match a with | ⟨0, _⟩ => rfl)

/-- The second-layer weight the contraction meets at (b, f, d) and k is W2[d,k]. -/
theorem weight2_idx (i : S256x700x256.Idx) (k : Fin 512) : ridx_main_v10 i k = ix2 (i 2) k :=
  funext fun a => Fin.ext (by match a with | ⟨0, _⟩ => rfl | ⟨1, _⟩ => rfl)

/-- The second-layer bias read at (b, f, d) is b2[d]. -/
theorem bias2_idx (i : S256x700x256.Idx) : idx_main_v11 (idx_main_v12 i) = ix1 (i 2) :=
  funext fun a => Fin.ext (by match a with | ⟨0, _⟩ => rfl)

/-! ## The result -/

/-- The reference's last stage is the perceptron of the five argument arrays. -/
theorem reference_eq (x0 : (⟨S256x700, .f32⟩ : BufTy).Contents (Elt Ideal)) (x1 : (⟨S512x1, .f32⟩ : BufTy).Contents (Elt Ideal))
    (x2 : (⟨S512, .f32⟩ : BufTy).Contents (Elt Ideal)) (x3 : (⟨S256x512, .f32⟩ : BufTy).Contents (Elt Ideal))
    (x4 : (⟨S256, .f32⟩ : BufTy).Contents (Elt Ideal)) :
    val_main_v14 (F := Ideal) x0 x1 x2 x3 x4 = perceptron x0 x1 x2 x3 x4 := by
  funext i
  rw [val_main_v14_apply, val_main_v13_apply, val_main_v10_apply, val_main_v12_apply, val_main_v11_apply,
    val_main_call1_v0_apply, val_main_call1_cst_apply, bias2_idx]
  simp only [val_main_v9_apply, val_main_v8_apply, val_main_v5_apply, val_main_v3_apply, val_main_v0_apply,
    val_main_v4_apply, val_main_v2_apply, val_main_v1_apply, val_main_v7_apply, val_main_v6_apply,
    val_main_call0_v0_apply, val_main_call0_cst_apply, feature_idx, weight1_idx, bias1_idx, weight2_idx]
  rfl

end Cert.ReferenceIdeal.RefValue

end
-- ==== Proof.lean ====
/-
  A two-layer perceptron applied to every scalar feature of a [256,700] batch.

  For each feature x[b,f] both programs compute, for each of 256 outputs d,
      out[b,f,d] = max ((sum over the 512 hidden units k of max (x[b,f] * W1[k,0] + b1[k]) 0 * W2[d,k]) + b2[d]) 0.
  The reference broadcasts everything to [256,700,512], contracts the last axis against W2 and adds b2. The kernel
  flattens the batch to 179200 = 256 * 700 rows, lays the weights out as rows and W2 transposed, and lets each of
  50 grid points work on 3584 consecutive rows: a column of features times a weight row, plus a bias row, rectified,
  multiplied into the transposed W2 from a zero accumulator, plus a bias row, rectified. Over the extended reals the
  matrix product from zero is the plain sum over the hidden index and a change of float format is the identity, so
  every block is a window of one function of the flattened rows, the 50 blocks tile the region's array, and the
  final reshape puts row b * 700 + f back at (b, f). The two results are then the same function of the arguments,
  operand by operand, with no algebraic law needed beyond reading both sums over the same index in the same order;
  in particular the finiteness of the inputs is never used.

  The frames of the two kernel programs are the generated ones; the reference's frame is its run with the result
  dropped; the idealization rewrote nothing, so there is nothing to preserve.
-/
import proofs.«147390_j62912680952641_1_alg».proof.Defs
import proofs.«147390_j62912680952641_1_alg».proof.Proof.Gen.Kernel
import proofs.«147390_j62912680952641_1_alg».proof.Proof.Gen.Kernel.Frame
import proofs.«147390_j62912680952641_1_alg».proof.Proof.Gen.KernelIdeal
import proofs.«147390_j62912680952641_1_alg».proof.Proof.Gen.KernelIdeal.Frame
import proofs.«147390_j62912680952641_1_alg».proof.Proof.Gen.ReferenceIdeal
import proofs.«147390_j62912680952641_1_alg».proof.Proof.Gen.Pre_finite_inputs
import proofs.«147390_j62912680952641_1_alg».proof.Proof.Gen.ReferenceIdeal.Run
import proofs.«147390_j62912680952641_1_alg».proof.Proof.Gen.ReferenceIdeal.Read
import proofs.«147390_j62912680952641_1_alg».proof.Proof.KernelValue
import proofs.«147390_j62912680952641_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the perceptron of the arguments in their result buffer. -/
theorem algebraic : Cert.algebraic_KernelIdeal_ReferenceIdeal := by
  intro m ρ m' ρ' _ hagree
  refine ⟨fun c => Cert.FeatureMlp.perceptron (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _ _).trans
    ((Cert.ReferenceIdeal.RefValue.reference_eq _ _ _ _ _).trans ?_)
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
